-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1000x32 : Shape := ⟨2, ![1000, 32]⟩
abbrev S1000000 : Shape := ⟨1, ![1000000]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000x32 : S_.BroadcastsInDim S1000x32 (![] : Fin 0 → Fin S1000x32.rank)
  reducesTo_S1000x32_S_d0_1 : S1000x32.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S1000000 .f32) (main_v13 : IVec S_ 1) (main_v16 : IVec S1000x32 1) : IVec S_ 1 :=
  let main_c_5 : IVec S_ 1 := constantI S_ 1 1#1
  let main_v17 : IVec S_ 1 := (fun x v => Host.reduce IntOp.andi x v reducesTo_S1000x32_S_d0_1 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  main_v23

def fn {F : FTy → Type} [FloatOps F] (main_arg0 : FVec F S1000000x32 .f32) (main_arg1 : FVec F S1000x32 .f32) (main_arg2 : FVec F S1000000x32 .f32) (main_arg3 : FVec F S1000x32 .f32) (main_arg4 : FVec F S1000000 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000x32 .f32 := Host.absf main_arg1
  let main_cst_0 : FVec F S_ .f32 := constant S_ .f32 0x7F800000#32
  let main_v5 : FVec F S1000x32 .f32 := broadcastInDim S1000x32 ![] bcast_S_S1000x32 main_cst_0
  let main_v6 : IVec S1000x32 1 := cmpf .olt main_v4 main_v5
  let main_c_1 : IVec S_ 1 := constantI S_ 1 1#1
  let main_v7 : IVec S_ 1 := (fun x v => Host.reduce IntOp.andi x v reducesTo_S1000x32_S_d0_1 h_S_) main_v6 main_c_1
  let main_v8 : IVec S_ 1 := andi main_v3 main_v7
  let main_v9 : FVec F S1000000x32 .f32 := Host.absf main_arg2
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000x32 .f32 := Host.absf main_arg3
  let main_cst_4 : FVec F S_ .f32 := constant S_ .f32 0x7F800000#32
  let main_v15 : FVec F S1000x32 .f32 := broadcastInDim S1000x32 ![] bcast_S_S1000x32 main_cst_4
  let main_v16 : IVec S1000x32 1 := cmpf .olt main_v14 main_v15
  fn_part1 (F := F) main_arg4 main_v13 main_v16
-- ==== Kernel.lean ====
abbrev S1000000x32 : Shape := ⟨2, ![1000000, 32]⟩
abbrev S1000x32 : Shape := ⟨2, ![1000, 32]⟩
abbrev S1000000 : Shape := ⟨1, ![1000000]⟩
abbrev S125x1x8000 : Shape := ⟨3, ![125, 1, 8000]⟩
abbrev S1x1 : Shape := ⟨2, ![1, 1]⟩
abbrev S8000x32 : Shape := ⟨2, ![8000, 32]⟩
abbrev S1x1x8000 : Shape := ⟨3, ![1, 1, 8000]⟩
abbrev S1x1000x32 : Shape := ⟨3, ![1, 1000, 32]⟩
abbrev S1 : Shape := ⟨1, ![1]⟩
abbrev S1x1x1 : Shape := ⟨3, ![1, 1, 1]⟩
abbrev S8000 : Shape := ⟨1, ![8000]⟩
abbrev S8000x1 : Shape := ⟨2, ![8000, 1]⟩
abbrev S1x8000x32 : Shape := ⟨3, ![1, 8000, 32]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S1000000x32, .f32⟩
  | .hbm, ⟨1, _⟩ => ⟨S1000x32, .f32⟩
  | .hbm, ⟨2, _⟩ => ⟨S1000000x32, .f32⟩
  | .hbm, ⟨3, _⟩ => ⟨S1000x32, .f32⟩
  | .hbm, ⟨4, _⟩ => ⟨S1000000, .f32⟩
  | .hbm, ⟨5, _⟩ => ⟨S125x1x8000, .f32⟩
  | .hbm, ⟨6, _⟩ => ⟨S1x1, .f32⟩
  | .hbm, ⟨7, _⟩ => ⟨S_, .f32⟩
  | .local _ .vmem, ⟨0, _⟩ => ⟨S8000x32, .f32⟩
  | .local _ .vmem, ⟨1, _⟩ => ⟨S8000x32, .f32⟩
  | .local _ .vmem, ⟨2, _⟩ => ⟨S8000x32, .f32⟩
  | .local _ .vmem, ⟨3, _⟩ => ⟨S8000x32, .f32⟩
  | .local _ .vmem, ⟨4, _⟩ => ⟨S1x1x8000, .f32⟩
  | .local _ .vmem, ⟨5, _⟩ => ⟨S1x1x8000, .f32⟩
  | .local _ .vmem, ⟨6, _⟩ => ⟨S1000x32, .f32⟩
  | .local _ .vmem, ⟨7, _⟩ => ⟨S1000x32, .f32⟩
  | .local _ .vmem, ⟨8, _⟩ => ⟨S1x1, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S1000000_S125x1x8000 : S1000000.ShapeCasts S125x1x8000
  inb_S1000x32_S1000x32_0_0 : ∀ a, (![0, 0] : Fin 2 → Nat) a + S1000x32.size a ≤ S1000x32.size a
  h_S1000x32 : 0 < S1000x32.numel
  shapeCasts_S1000x32_S1x1000x32 : S1000x32.ShapeCasts S1x1000x32
  reduces_S1x1000x32_S1 : S1x1000x32.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  inb_S1x1x8000_S1x1x8000_0_0_0 : ∀ a, (![0, 0, 0] : Fin 3 → Nat) a + S1x1x8000.size a ≤ S1x1x8000.size a
  h_S1x1x8000 : 0 < S1x1x8000.numel
  shapeCasts_S1x1x8000_S8000 : S1x1x8000.ShapeCasts S8000
  inb_S8000x32_S8000x32_0_0 : ∀ a, (![0, 0] : Fin 2 → Nat) a + S8000x32.size a ≤ S8000x32.size a
  h_S8000x32 : 0 < S8000x32.numel
  shapeCasts_S8000_S8000x1 : S8000.ShapeCasts S8000x1
  broadcasts_S8000x1_S8000x32 : S8000x1.Broadcasts S8000x32
  shapeCasts_S1x1_S1x1 : S1x1.ShapeCasts S1x1
  shapeCasts_S8000x32_S1x8000x32 : S8000x32.ShapeCasts S1x8000x32
  reduces_S1x8000x32_S1 : S1x8000x32.Reduces [1, 2] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1000000x32.size a
  hwx0_0 : ∀ i : grid0.Coords, EltTy.bits .f32 = 32 ∨ (Rect.block (s := S1000000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1000000x32.size a
  hwx0_1 : ∀ i : grid0.Coords, EltTy.bits .f32 = 32 ∨ (Rect.block (s := S1000000x32) S8000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8000.size a ≤ S125x1x8000.size a
  hwx0_2 : ∀ i : grid0.Coords, EltTy.bits .f32 = 32 ∨ (Rect.block (s := S125x1x8000) S1x1x8000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x32.size a ≤ S1000x32.size a
  hwx0_3 : ∀ i : grid0.Coords, EltTy.bits .f32 = 32 ∨ (Rect.block (s := S1000x32) S1000x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x32.size a ≤ S1000x32.size a
  hwx0_4 : ∀ i : grid0.Coords, EltTy.bits .f32 = 32 ∨ (Rect.block (s := S1000x32) S1000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x8000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1000x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1000x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x32 : Shape := ⟨2, ![1000000, 32]⟩
abbrev S1000x32 : Shape := ⟨2, ![1000, 32]⟩
abbrev S1000000 : Shape := ⟨1, ![1000000]⟩
abbrev S1000000x1 : Shape := ⟨2, ![1000000, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000x32, .f32⟩
  | .hbm, ⟨2, _⟩ => ⟨S1000000x32, .f32⟩
  | .hbm, ⟨3, _⟩ => ⟨S1000x32, .f32⟩
  | .hbm, ⟨4, _⟩ => ⟨S1000000, .f32⟩
  | .hbm, ⟨5, _⟩ => ⟨S1000000x1, .f32⟩
  | .hbm, ⟨6, _⟩ => ⟨S1000000x32, .f32⟩
  | .hbm, ⟨7, _⟩ => ⟨S1000000x32, .f32⟩
  | .hbm, ⟨8, _⟩ => ⟨S1000000x1, .f32⟩
  | .hbm, ⟨9, _⟩ => ⟨S1000000x32, .f32⟩
  | .hbm, ⟨10, _⟩ => ⟨S1000000x32, .f32⟩
  | .hbm, ⟨11, _⟩ => ⟨S1000000x32, .f32⟩
  | .hbm, ⟨12, _⟩ => ⟨S1000000x32, .f32⟩
  | .hbm, ⟨13, _⟩ => ⟨S_, .f32⟩
  | .hbm, ⟨14, _⟩ => ⟨S1000000x32, .f32⟩
  | .hbm, ⟨15, _⟩ => ⟨S1000000x32, .f32⟩
  | .hbm, ⟨16, _⟩ => ⟨S1000000x32, .f32⟩
  | .hbm, ⟨17, _⟩ => ⟨S_, .f32⟩
  | .hbm, ⟨18, _⟩ => ⟨S1000000x32, .f32⟩
  | .hbm, ⟨19, _⟩ => ⟨S1000000x32, .f32⟩
  | .hbm, ⟨20, _⟩ => ⟨S_, .f32⟩
  | .hbm, ⟨21, _⟩ => ⟨S1000000x32, .f32⟩
  | .hbm, ⟨22, _⟩ => ⟨S1000000x32, .f32⟩
  | .hbm, ⟨23, _⟩ => ⟨S_, .f32⟩
  | .hbm, ⟨24, _⟩ => ⟨S1000000x32, .f32⟩
  | .hbm, ⟨25, _⟩ => ⟨S1000000x32, .i1⟩
  | .hbm, ⟨26, _⟩ => ⟨S1000000x32, .f32⟩
  | .hbm, ⟨27, _⟩ => ⟨S_, .f32⟩
  | .hbm, ⟨28, _⟩ => ⟨S_, .f32⟩
  | .hbm, ⟨29, _⟩ => ⟨S1000x32, .f32⟩
  | .hbm, ⟨30, _⟩ => ⟨S1000x32, .f32⟩
  | .hbm, ⟨31, _⟩ => ⟨S_, .f32⟩
  | .hbm, ⟨32, _⟩ => ⟨S1000x32, .f32⟩
  | .hbm, ⟨33, _⟩ => ⟨S1000x32, .f32⟩
  | .hbm, ⟨34, _⟩ => ⟨S1000x32, .f32⟩
  | .hbm, ⟨35, _⟩ => ⟨S_, .f32⟩
  | .hbm, ⟨36, _⟩ => ⟨S1000x32, .f32⟩
  | .hbm, ⟨37, _⟩ => ⟨S1000x32, .f32⟩
  | .hbm, ⟨38, _⟩ => ⟨S_, .f32⟩
  | .hbm, ⟨39, _⟩ => ⟨S1000x32, .f32⟩
  | .hbm, ⟨40, _⟩ => ⟨S1000x32, .f32⟩
  | .hbm, ⟨41, _⟩ => ⟨S_, .f32⟩
  | .hbm, ⟨42, _⟩ => ⟨S1000x32, .f32⟩
  | .hbm, ⟨43, _⟩ => ⟨S1000x32, .i1⟩
  | .hbm, ⟨44, _⟩ => ⟨S1000x32, .f32⟩
  | .hbm, ⟨45, _⟩ => ⟨S_, .f32⟩
  | .hbm, ⟨46, _⟩ => ⟨S_, .f32⟩
  | .hbm, ⟨47, _⟩ => ⟨S_, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S1000000x1_S1000000x32_0_1 : S1000000x1.BroadcastsInDim S1000000x32 (![0, 1] : Fin 2 → Fin S1000000x32.rank)
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000x32 : S_.BroadcastsInDim S1000x32 (![] : Fin 0 → Fin S1000x32.rank)
  reducesTo_S1000x32_S_d0_1 : S1000x32.ReducesTo [0, 1] S_

variable [Facts₀]

class Facts : Prop extends Facts₀ where

variable [Facts]
-- ==== Proof.Body.lean ====
/-
  What one grid step leaves in the kernel's one-entry output block.

  At the first step the block is set to the relation payload (the Huber total of the two relation tables), read
  back, and overwritten by the step payload of that read-back value and the step's three input blocks; at every later
  step it is overwritten by the step payload of what the step before left and the step's three input blocks. Each store
  covers the whole 1 × 1 block and each load reads a whole staging buffer, so the block ends at the last store's
  payload with every load replaced by the contents it reads.
-/
import proofs.«108133_g89472758710287_cont_sun_m_769_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a rank-2 and of a rank-3 access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later step (the branch not taken): the block, holding `xo`, ends at the step payload of the mask block `x2`, the
    two entity blocks `x0`, `x1` and `xo`. -/
theorem out_B (c : Dev nD) (i : grid0.Coords) (a1 : Memref sig .tc .vmem S8000x32 .f32) (h1 : a1.IsWhole)
    (a2 : Memref sig .tc .vmem S8000x32 .f32) (h2 : a2.IsWhole) (a3 : Memref sig .tc .vmem S1x1x8000 .f32) (h3 : a3.IsWhole)
    (a4 : Memref sig .tc .vmem S1000x32 .f32) (h4 : a4.IsWhole) (a5 : Memref sig .tc .vmem S1000x32 .f32) (h5 : a5.IsWhole)
    (a6 : Memref sig .tc .vmem S1x1 .f32) (h6 : a6.IsWhole) (hc : ¬cond0_0 i)
    (x0 x1 : Vec F S8000x32 .f32) (x2 : Vec F S1x1x8000 .f32) (x3 x4 : Vec F S1000x32 .f32) (xo : Vec F S1x1 .f32) :
    out0_B_5 c i a1 h1 a2 h2 a3 h3 a4 h4 a5 h5 a6 h6 hc x0 x1 x2 x3 x4 xo = k0_pay2 x2 x0 x1 xo := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero (S := S1x1) hz2]
  simp only [View.readAt_eq_ld, h1.read_unread, h2.read_unread, h3.read_unread, h6.read_unread,
    View.ld_unit_zero (S := S8000x32) hz2, View.ld_unit_zero (S := S1x1x8000) hz3, View.ld_unit_zero (S := S1x1) hz2]

/-- The first step (the branch taken): the block ends at the step payload of the mask block, the two entity blocks
    and the relation payload of the two relation tables `x3`, `x4`. -/
theorem out_A (c : Dev nD) (i : grid0.Coords) (a1 : Memref sig .tc .vmem S8000x32 .f32) (h1 : a1.IsWhole)
    (a2 : Memref sig .tc .vmem S8000x32 .f32) (h2 : a2.IsWhole) (a3 : Memref sig .tc .vmem S1x1x8000 .f32) (h3 : a3.IsWhole)
    (a4 : Memref sig .tc .vmem S1000x32 .f32) (h4 : a4.IsWhole) (a5 : Memref sig .tc .vmem S1000x32 .f32) (h5 : a5.IsWhole)
    (a6 : Memref sig .tc .vmem S1x1 .f32) (h6 : a6.IsWhole) (hc : cond0_0 i)
    (x0 x1 : Vec F S8000x32 .f32) (x2 : Vec F S1x1x8000 .f32) (x3 x4 : Vec F S1000x32 .f32) :
    out0_A_5 c i a1 h1 a2 h2 a3 h3 a4 h4 a5 h5 a6 h6 hc x0 x1 x2 x3 x4 = k0_pay2 x2 x0 x1 (k0_pay1 x3 x4) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S8000x32) hz2, View.ld_unit_zero (S := S1x1x8000) hz3, View.ld_unit_zero (S := S1000x32) hz2]

end Cert.KernelIdeal.Body

end
-- ==== Proof.LibReduceAll2.lean ====
/-
  Sums over the entries of a [1, a, b] array, and a lane reduction that collects all of them.

  An index of a [1, a, b] array is the pair of its last two coordinates, its first being 0. So the sum of the array over
  all its indices is the double sum over those two coordinates; and an [a, b] array seen as [1, a, b] and reduced by
  addition over its last two axes into one entry — at the exact instance, from the zero word — has that double sum as
  its entry, also after the entry is seen as [1, 1, 1], taken out and spread over a [1, 1] array. Any sizes a, b.
  Beside it, the absolute value of an array of extended reals read at an index: the larger of the entry and its negation.
-/
import Idealize.ShloMosaic.PureOps.Ideal
import Idealize.ShloMosaic.PureOps.Ideal.Laws
import Idealize.ShloMosaic.Lib.ValueIdx
import Idealize.ShloMosaic.Lib.ValueLayout
import Mathlib.Algebra.BigOperators.Fin
import Mathlib.Data.Fintype.BigOperators

noncomputable section

namespace Cert.LibReduceAll2

open Idealize.ShloMosaic Idealize.ShloMosaic.ValueIdx
open scoped BigOperators

/-- The indices of a [1, a, b] array are the pairs of their last two coordinates. -/
def idxEquiv1ab {a b : ℕ} : (⟨3, ![1, a, b]⟩ : Shape).Idx ≃ Fin a × Fin b where
  toFun i := (i 1, i 2)
  invFun p := ix3 (0 : Fin 1) p.1 p.2
  left_inv i := by
    have h0 : (i 0 : Fin 1) = (0 : Fin 1) := Subsingleton.elim (α := Fin 1) _ _
    rw [← h0]; exact (eq_ix3 i).symm
  right_inv _ := rfl

/-- A sum over the indices of a [1, a, b] array is the double sum over the last two coordinates. -/
theorem sum_idx1ab {M : Type*} [AddCommMonoid M] {a b : ℕ} (f : (⟨3, ![1, a, b]⟩ : Shape).Idx → M) :
    ∑ i, f i = ∑ p : Fin a, ∑ j : Fin b, f (ix3 (0 : Fin 1) p j) := by
  rw [← Equiv.sum_comp (idxEquiv1ab (a := a) (b := b)).symm f, Fintype.sum_prod_type]
  rfl

/-- An [a, b] array seen as [1, a, b] and summed over its last two axes: the one entry of the result is the double sum
    of the array over its rows and columns. -/
theorem reduce_all_1ab {a b : ℕ} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ) (k : (⟨1, ![1]⟩ : Shape).Idx) :
    multiReduction (F := Ideal) .add [1, 2] ⟨1, ![1]⟩ (shapeCast ⟨3, ![1, a, b]⟩ v hc) 0x00000000#32 hr hφ hacc k
      = ∑ p : Fin a, ∑ j : Fin b, v (ix2 p j) := by
  rw [Ideal.multiReduction_add_total _ _ hr (fun d => by match d with | ⟨0, _⟩ => rfl) hφ hacc k, sum_idx1ab]
  refine Finset.sum_congr rfl fun p _ => Finset.sum_congr rfl fun j _ => ?_
  exact shapeCast_ab_1ab_apply v hc 0 p j

/-- The same sum, after the one-entry result is seen as [1, 1, 1], its entry taken out and spread over a [1, 1] array:
    every entry of that array is the double sum. -/
theorem total_read {a b : ℕ} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ)
    (hc1 : (⟨1, ![1]⟩ : Shape).ShapeCasts ⟨3, ![1, 1, 1]⟩)
    (hin : ∀ d, (![0, 0, 0] : Fin 3 → ℕ) d < (⟨3, ![1, 1, 1]⟩ : Shape).size d)
    (i : (⟨2, ![1, 1]⟩ : Shape).Idx) :
    broadcast ⟨2, ![1, 1]⟩ (extractAt ![0, 0, 0] (shapeCast ⟨3, ![1, 1, 1]⟩
        (multiReduction (F := Ideal) .add [1, 2] ⟨1, ![1]⟩ (shapeCast ⟨3, ![1, a, b]⟩ v hc) 0x00000000#32 hr hφ hacc) hc1) hin) i
      = ∑ p : Fin a, ∑ j : Fin b, v (ix2 p j) :=
  reduce_all_1ab v hc hr hφ hacc _

/-- The absolute value of an array of extended reals, entry by entry: the larger of the entry and its negation. -/
theorem absf_apply {s : Shape} {φ : FTy} (a : FVec Ideal s φ) (i : s.Idx) : absf a i = max (a i) (-(a i)) := rfl

end Cert.LibReduceAll2

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.Huber.lean ====
/-
  The Huber distillation total on the extended reals, in the two arrangements the programs compute it, and the law
  that joins them.

  For an error e the Huber term is (1/2 · e) · e where |e| = max e (-e) is below one, and |e| - 1/2 elsewhere.
  One arrangement masks the difference of an entity row, (a - b) · m, tile of 8000 rows by tile, and adds the tile
  totals to the relation total; the other masks each table first, a · m - b · m, sums over all 1000000 rows, and adds
  the relation total last. Over coerced reals the two masked errors agree (the product distributes over the
  difference), a sum over 125 tiles of 8000 consecutive rows is the sum over all rows, and addition of extended reals
  is commutative: the two totals are equal.
-/
import Idealize.ShloMosaic.PureOps.Ideal
import Idealize.ShloMosaic.PureOps.Ideal.Laws
import Idealize.ShloMosaic.Lib.ValueIdx
import Mathlib.Algebra.BigOperators.Fin
import Mathlib.Data.Fintype.BigOperators
import Mathlib.Data.EReal.Operations
import proofs.«108133_g89472758710287_cont_sun_m_769_3_alg».proof.Proof.LibBlockSum

noncomputable section

namespace Cert.Huber

open Idealize.ShloMosaic Idealize.ShloMosaic.ValueIdx
open scoped BigOperators

/-- The entity tables' shape, the relation tables' shape and the mask's shape. -/
abbrev SEnt : Shape := ⟨2, ![1000000, 32]⟩
abbrev SRel : Shape := ⟨2, ![1000, 32]⟩
abbrev SMask : Shape := ⟨1, ![1000000]⟩

/-- The Huber term of one error: (1/2 · e) · e where max e (-e) < 1, and max e (-e) - 1/2 elsewhere; the
    constants are kept as the patterns both programs spell. -/
def huber (e : EReal) : EReal :=
  Scalar.select (Ideal.cmp .olt (max e (-e)) (Ideal.ofBits .f32 0x3F800000#32))
    (Ideal.ofBits .f32 0x3F000000#32 * e * e) (max e (-e) - Ideal.ofBits .f32 0x3F000000#32)

/-- The same term with its linear branch multiplied by the pattern of one (the threshold delta = 1 spelt out). -/
def huberScaled (e : EReal) : EReal :=
  Scalar.select (Ideal.cmp .olt (max e (-e)) (Ideal.ofBits .f32 0x3F800000#32))
    (Ideal.ofBits .f32 0x3F000000#32 * e * e)
    (Ideal.ofBits .f32 0x3F800000#32 * (max e (-e) - Ideal.ofBits .f32 0x3F000000#32))

/-- The pattern 0x3F800000 denotes one. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- Multiplying the linear branch by one changes nothing. -/
theorem huberScaled_eq (e : EReal) : huberScaled e = huber e := by
  unfold huberScaled huber
  rw [ofBits_one, one_mul]

/-- Row i of tile t is row 8000 t + i of the table. -/
def row (t : Fin 125) (i : Fin 8000) : Fin 1000000 := ⟨8000 * t.val + i.val, by omega⟩

/-- The relation total: the Huber terms of r - s over the 1000 × 32 entries. -/
def relTotal (r s : SRel.Idx → EReal) : EReal :=
  ∑ p : Fin 1000, ∑ q : Fin 32, huber (r (ix2 p q) - s (ix2 p q))

/-- Tile t's total: the Huber terms of (a - b) · m over the tile's 8000 × 32 entries. -/
def tileTotal (a b : SEnt.Idx → EReal) (mk : SMask.Idx → EReal) (t : Fin 125) : EReal :=
  ∑ i : Fin 8000, ∑ j : Fin 32, huber ((a (ix2 (row t i) j) - b (ix2 (row t i) j)) * mk (ix1 (row t i)))

/-- The total: the relation total plus the 125 tile totals. -/
def total (a b : SEnt.Idx → EReal) (mk : SMask.Idx → EReal) (r s : SRel.Idx → EReal) : EReal :=
  relTotal r s + ∑ t : Fin 125, tileTotal a b mk t

/-- The entity total with each table masked first: the Huber terms of a · m - b · m over all 1000000 × 32 entries. -/
def entTotalMaskedFirst (a b : SEnt.Idx → EReal) (mk : SMask.Idx → EReal) : EReal :=
  ∑ n : Fin 1000000, ∑ j : Fin 32, huber (a (ix2 n j) * mk (ix1 n) - b (ix2 n j) * mk (ix1 n))

/-- Over coerced reals the product distributes over the difference. -/
theorem sub_mul_coe (x y z : ℝ) : ((x : EReal) - (y : EReal)) * (z : EReal) = (x : EReal) * (z : EReal) - (y : EReal) * (z : EReal) := by
  rw [← EReal.coe_sub, ← EReal.coe_mul, ← EReal.coe_mul, ← EReal.coe_mul, ← EReal.coe_sub, sub_mul]

/-- 125 tiles of 8000 consecutive rows make up the 1000000 rows. -/
theorem sum_tiles {M : Type*} [AddCommMonoid M] (f : Fin 1000000 → M) :
    ∑ t : Fin 125, ∑ i : Fin 8000, f (row t i) = ∑ n : Fin 1000000, f n :=
  Cert.BlockSum.sum_blocks 125 8000 f

/-- With every entry a coerced real, masking the tables first gives the sum of the tile totals. -/
theorem entTotalMaskedFirst_eq (a b : SEnt.Idx → EReal) (mk : SMask.Idx → EReal)
    (ha : ∀ i, ∃ x : ℝ, a i = (x : EReal)) (hb : ∀ i, ∃ x : ℝ, b i = (x : EReal)) (hm : ∀ i, ∃ x : ℝ, mk i = (x : EReal)) :
    entTotalMaskedFirst a b mk = ∑ t : Fin 125, tileTotal a b mk t := by
  unfold entTotalMaskedFirst tileTotal
  rw [← sum_tiles]
  refine Finset.sum_congr rfl fun t _ => Finset.sum_congr rfl fun i _ => Finset.sum_congr rfl fun j _ => ?_
  obtain ⟨x, hx⟩ := ha (ix2 (row t i) j)
  obtain ⟨y, hy⟩ := hb (ix2 (row t i) j)
  obtain ⟨z, hz⟩ := hm (ix1 (row t i))
  rw [hx, hy, hz, sub_mul_coe]

/-- THE LAW: the entity total masked first, from zero, plus the relation total, from zero, is the total. -/
theorem maskedFirst_total (a b : SEnt.Idx → EReal) (mk : SMask.Idx → EReal) (r s : SRel.Idx → EReal)
    (ha : ∀ i, ∃ x : ℝ, a i = (x : EReal)) (hb : ∀ i, ∃ x : ℝ, b i = (x : EReal)) (hm : ∀ i, ∃ x : ℝ, mk i = (x : EReal)) :
    (0 + entTotalMaskedFirst a b mk) + (0 + relTotal r s) = total a b mk r s := by
  rw [zero_add, zero_add, entTotalMaskedFirst_eq a b mk ha hb hm, add_comm]
  rfl

end Cert.Huber

end
-- ==== Proof.Payload.lean ====
/-
  The two payloads of the kernel body, read at the exact instance.

  The relation payload of two 1000 × 32 tables is, in its one entry, the relation total: the Huber terms of their
  difference summed over all entries (the lane reduction collects every entry, from the zero word). The step payload of a
  mask block, two 8000 × 32 entity blocks and the running 1 × 1 block is the running entry plus the Huber terms of
  (x0 - x1) · mask summed over the tile, the mask block's entry p spread along row p.
-/
import proofs.«108133_g89472758710287_cont_sun_m_769_3_alg».proof.Proof.Gen.KernelIdeal.Skeleton
import proofs.«108133_g89472758710287_cont_sun_m_769_3_alg».proof.Proof.LibReduceAll2
import proofs.«108133_g89472758710287_cont_sun_m_769_3_alg».proof.Proof.LibColumn
import proofs.«108133_g89472758710287_cont_sun_m_769_3_alg».proof.Proof.Huber
import Idealize.ShloMosaic.Lib.Pipeline.Value
import Idealize.ShloMosaic.Lib.ValueIdx
import Idealize.ShloMosaic.Lib.ValueLayout

noncomputable section

open Idealize.ShloMosaic Idealize.ShloMosaic.ValueIdx
open scoped BigOperators

namespace Cert.KernelIdeal.Payload

open Cert.KernelIdeal Cert.KernelIdeal.Gen

/-- The mask block [1, 1, 8000] seen as a vector, then as a column, then spread along the rows of [8000, 32]: entry
    (p, q) is the mask block's entry (0, 0, p). -/
theorem mask_read {α : Type} (x2 : S1x1x8000.Idx → α) (hc1 : S1x1x8000.ShapeCasts S8000) (hc2 : S8000.ShapeCasts S8000x1)
    (hb : S8000x1.Broadcasts S8000x32) (p : Fin 8000) (q : Fin 32) :
    broadcastTo S8000x32 (shapeCast S8000x1 (shapeCast S8000 x2 hc1) hc2) hb (ix2 p q) = x2 (ix3 (0 : Fin 1) (0 : Fin 1) p) := by
  rw [Cert.LibColumn.broadcastTo_a1_ab_apply, Cert.LibColumn.shapeCast_a_a1_apply]
  refine shapeCast_apply x2 hc1 (ix1 p) (ix3 (0 : Fin 1) (0 : Fin 1) p) ?_
  rw [Shape.rowMajor_val_three, Shape.rowMajor_val_one]
  show ((0 : Nat) * 1 + 0) * 8000 + p.val = p.val
  omega

/-- The relation payload's entry is the relation total of the two tables. -/
theorem pay1_apply (x3 x4 : Vec Ideal S1000x32 .f32) (i : S1x1.Idx) :
    k0_pay1 (F := Ideal) x3 x4 i = Cert.Huber.relTotal x3 x4 := by
  unfold k0_pay1
  dsimp only
  refine (Cert.LibReduceAll2.total_read (a := 1000) (b := 32) _ shapeCasts_S1000x32_S1x1000x32 reduces_S1x1000x32_S1 _ _
    shapeCasts_S1_S1x1x1 inpos_S1x1x1_p0_0_0 i).trans ?_
  rfl

/-- The step payload's entry is the running entry plus the tile's Huber total of (x0 - x1) · mask. -/
theorem pay2_apply (x2 : Vec Ideal S1x1x8000 .f32) (x0 x1 : Vec Ideal S8000x32 .f32) (xo : Vec Ideal S1x1 .f32) (i : S1x1.Idx) :
    k0_pay2 (F := Ideal) x2 x0 x1 xo i
      = xo i + ∑ p : Fin 8000, ∑ q : Fin 32,
          Cert.Huber.huber ((x0 (ix2 p q) - x1 (ix2 p q)) * x2 (ix3 (0 : Fin 1) (0 : Fin 1) p)) := by
  unfold k0_pay2
  dsimp only
  rw [addf_apply, shapeCast_self]
  refine congrArg (fun z => xo i + z) ((Cert.LibReduceAll2.total_read (a := 8000) (b := 32) _ shapeCasts_S8000x32_S1x8000x32
    reduces_S1x8000x32_S1 _ _ shapeCasts_S1_S1x1x1 inpos_S1x1x1_p0_0_0 i).trans ?_)
  refine Finset.sum_congr rfl fun p _ => Finset.sum_congr rfl fun q _ => ?_
  rw [← mask_read x2 shapeCasts_S1x1x8000_S8000 shapeCasts_S8000_S8000x1 broadcasts_S8000x1_S8000x32 p q]
  rfl

end Cert.KernelIdeal.Payload

end
-- ==== Proof.Blocks.lean ====
/-
  Where the kernel's input blocks sit in the argument arrays.

  At grid step t the two entity windows hold rows 8000 t … 8000 t + 7999 of their tables, all 32 columns; the mask
  window holds entries 8000 t … 8000 t + 7999 of the mask (the mask reshaped [125, 1, 8000] on the host keeps its
  row-major order, so block (t, 0, 0) entry (0, 0, p) is mask entry 8000 t + p); the two relation windows hold their
  whole tables at every step.
-/
import proofs.«108133_g89472758710287_cont_sun_m_769_3_alg».proof.Proof.Gen.KernelIdeal.Frame
import proofs.«108133_g89472758710287_cont_sun_m_769_3_alg».proof.Proof.Huber
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Grid step t as a tile number. -/
abbrev tileOf (t : Fin cfg0.N) : Fin 125 := t.cast N_0

/-- The block indices of the five input windows, decided over the grid: the entity and mask windows move with the step
    along their first axis, the relation windows stay at the origin. -/
theorem idx_ent : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_old : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_mask : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx_rel : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_oldrel : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The current entity table's block at step t: entry (p, q) is the table's entry (8000 t + p, q). -/
theorem ent_read (c : Dev nD) (t : Fin cfg0.N) (p : Fin 8000) (q : Fin 32) :
    (iblk m c 0 t : Vec F S8000x32 .f32) (ix2 p q)
      = m ((c : Thread nD τ).loc main_arg0) (ix2 (Cert.Huber.row (tileOf t) p) q) := by
  unfold iblk
  rw [View.read_apply]
  show V m c main_arg0 _ = _
  rw [V_main_arg0]
  congr 1
  funext a
  apply Fin.ext
  match a with
  | ⟨0, _⟩ => show win0_0.index t 0 * 8000 + 1 * p.val = 8000 * t.val + p.val; rw [(idx_ent t).1]; omega
  | ⟨1, _⟩ => show win0_0.index t 1 * 32 + 1 * q.val = q.val; rw [(idx_ent t).2]; omega

/-- The old entity table's block at step t: entry (p, q) is the table's entry (8000 t + p, q). -/
theorem old_read (c : Dev nD) (t : Fin cfg0.N) (p : Fin 8000) (q : Fin 32) :
    (iblk m c 1 t : Vec F S8000x32 .f32) (ix2 p q)
      = m ((c : Thread nD τ).loc main_arg2) (ix2 (Cert.Huber.row (tileOf t) p) q) := by
  unfold iblk
  rw [View.read_apply]
  show V m c main_arg2 _ = _
  rw [V_main_arg2]
  congr 1
  funext a
  apply Fin.ext
  match a with
  | ⟨0, _⟩ => show win0_1.index t 0 * 8000 + 1 * p.val = 8000 * t.val + p.val; rw [(idx_old t).1]; omega
  | ⟨1, _⟩ => show win0_1.index t 1 * 32 + 1 * q.val = q.val; rw [(idx_old t).2]; omega

/-- The current relation table's block at any step is the table. -/
theorem rel_read (c : Dev nD) (t : Fin cfg0.N) (p : Fin 1000) (q : Fin 32) :
    (iblk m c 3 t : Vec F S1000x32 .f32) (ix2 p q) = m ((c : Thread nD τ).loc main_arg1) (ix2 p q) := by
  unfold iblk
  rw [View.read_apply]
  show V m c main_arg1 _ = _
  rw [V_main_arg1]
  congr 1
  funext a
  apply Fin.ext
  match a with
  | ⟨0, _⟩ => show win0_3.index t 0 * 1000 + 1 * p.val = p.val; rw [(idx_rel t).1]; omega
  | ⟨1, _⟩ => show win0_3.index t 1 * 32 + 1 * q.val = q.val; rw [(idx_rel t).2]; omega

/-- The old relation table's block at any step is the table. -/
theorem oldrel_read (c : Dev nD) (t : Fin cfg0.N) (p : Fin 1000) (q : Fin 32) :
    (iblk m c 4 t : Vec F S1000x32 .f32) (ix2 p q) = m ((c : Thread nD τ).loc main_arg3) (ix2 p q) := by
  unfold iblk
  rw [View.read_apply]
  show V m c main_arg3 _ = _
  rw [V_main_arg3]
  congr 1
  funext a
  apply Fin.ext
  match a with
  | ⟨0, _⟩ => show win0_4.index t 0 * 1000 + 1 * p.val = p.val; rw [(idx_oldrel t).1]; omega
  | ⟨1, _⟩ => show win0_4.index t 1 * 32 + 1 * q.val = q.val; rw [(idx_oldrel t).2]; omega

/-- The mask as the region finds it: the host's reshape of the mask argument to [125, 1, 8000]. -/
theorem V_mask (c : Dev nD) :
    (V m c main_v0 : Vec F S125x1x8000 .f32)
      = shapeCast S125x1x8000 (m ((c : Thread nD τ).loc main_arg4)) shapeCasts_S1000000_S125x1x8000 := by
  show StableHlo.after hostOps0 (fun b => m (c, b)) (Proc.devRef .tc main_v0) = _
  after_results
  rfl

/-- The mask's block at step t: entry (0, 0, p) is the mask's entry 8000 t + p. -/
theorem mask_read (c : Dev nD) (t : Fin cfg0.N) (p : Fin 8000) :
    (iblk m c 2 t : Vec F S1x1x8000 .f32) (ix3 (0 : Fin 1) (0 : Fin 1) p)
      = m ((c : Thread nD τ).loc main_arg4) (ix1 (Cert.Huber.row (tileOf t) p)) := by
  unfold iblk
  rw [View.read_apply]
  show V m c main_v0 _ = _
  rw [V_mask]
  refine shapeCast_apply _ shapeCasts_S1000000_S125x1x8000 _ (ix1 (Cert.Huber.row (tileOf t) p)) ?_
  rw [Shape.rowMajor_val_three, Shape.rowMajor_val_one]
  show 8000 * t.val + p.val
    = ((win0_2.index t 0 * 1 + 1 * 0) * 1 + (win0_2.index t 1 * 1 + 1 * 0)) * 8000 + (win0_2.index t 2 * 8000 + 1 * p.val)
  rw [(idx_mask t).1, (idx_mask t).2.1, (idx_mask t).2.2]
  omega

end Cert.KernelIdeal.Blocks

end
-- ==== Proof.Running.lean ====
/-
  The running total after the first n + 1 tiles: the relation total plus the tile totals 0 … n. It starts at the
  relation total plus tile 0, grows by one tile total per step, and after tile 124 is the total.
-/
import proofs.«108133_g89472758710287_cont_sun_m_769_3_alg».proof.Proof.Huber
import Mathlib.Algebra.BigOperators.Fin
import Mathlib.Algebra.BigOperators.Group.Finset.Basic

noncomputable section

namespace Cert.Huber

open Idealize.ShloMosaic
open scoped BigOperators

/-- Tile k's total, for a natural number k (zero past the last tile). -/
def tileAt (a b : SEnt.Idx → EReal) (mk : SMask.Idx → EReal) (k : ℕ) : EReal :=
  if h : k < 125 then tileTotal a b mk ⟨k, h⟩ else 0

/-- The relation total plus the totals of tiles 0 … n. -/
def partialTotal (a b : SEnt.Idx → EReal) (mk : SMask.Idx → EReal) (r s : SRel.Idx → EReal) (n : ℕ) : EReal :=
  relTotal r s + ∑ k ∈ Finset.range (n + 1), tileAt a b mk k

variable (a b : SEnt.Idx → EReal) (mk : SMask.Idx → EReal) (r s : SRel.Idx → EReal)

theorem partialTotal_zero : partialTotal a b mk r s 0 = relTotal r s + tileTotal a b mk ⟨0, by decide⟩ := by
  unfold partialTotal
  rw [Finset.sum_range_one]
  unfold tileAt
  rw [dif_pos (by decide)]

theorem partialTotal_succ (n : ℕ) (h : n + 1 < 125) :
    partialTotal a b mk r s (n + 1) = partialTotal a b mk r s n + tileTotal a b mk ⟨n + 1, h⟩ := by
  unfold partialTotal
  rw [Finset.sum_range_succ _ (n + 1), ← add_assoc]
  congr 1
  unfold tileAt
  rw [dif_pos h]

theorem partialTotal_last : partialTotal a b mk r s 124 = total a b mk r s := by
  show relTotal r s + ∑ k ∈ Finset.range 125, tileAt a b mk k = relTotal r s + ∑ t : Fin 125, tileTotal a b mk t
  refine congrArg (fun z => relTotal r s + z) ?_
  rw [Finset.sum_range (fun k => tileAt a b mk k)]
  refine Finset.sum_congr rfl fun t _ => ?_
  unfold tileAt
  rw [dif_pos t.isLt]

end Cert.Huber

end
-- ==== Proof.Accum.lean ====
/-
  The kernel's result at the exact instance: the total.

  The one-entry output block is carried from grid step to grid step. After step 0 it holds the relation total plus
  tile 0's total; each later step adds its tile's total; so after step n it holds the relation total plus the totals of
  tiles 0 … n (induction on the step). The block is written back once, after step 124, and it is the whole 1 × 1 result
  array, which therefore ends at the total; the host's final reshape to a scalar keeps that one entry.
-/
import proofs.«108133_g89472758710287_cont_sun_m_769_3_alg».proof.Proof.Body
import proofs.«108133_g89472758710287_cont_sun_m_769_3_alg».proof.Proof.Payload
import proofs.«108133_g89472758710287_cont_sun_m_769_3_alg».proof.Proof.Blocks
import proofs.«108133_g89472758710287_cont_sun_m_769_3_alg».proof.Proof.Running
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen Cert.Huber

variable (m : (ℓ : Loc nD τ sig) → Buf (Elt Ideal) ℓ) (ρ : Dev nD → PrngReg)

/-- The five argument arrays on core `c`. -/
abbrev ent (c : Dev nD) : SEnt.Idx → EReal := m ((c : Thread nD τ).loc main_arg0)
abbrev rel (c : Dev nD) : SRel.Idx → EReal := m ((c : Thread nD τ).loc main_arg1)
abbrev old (c : Dev nD) : SEnt.Idx → EReal := m ((c : Thread nD τ).loc main_arg2)
abbrev oldRel (c : Dev nD) : SRel.Idx → EReal := m ((c : Thread nD τ).loc main_arg3)
abbrev mask (c : Dev nD) : SMask.Idx → EReal := m ((c : Thread nD τ).loc main_arg4)

/-- The five input blocks at grid step `t`. -/
abbrev entBlk (c : Dev nD) (t : Fin cfg0.N) : Vec Ideal S8000x32 .f32 := iblk m c 0 t
abbrev oldBlk (c : Dev nD) (t : Fin cfg0.N) : Vec Ideal S8000x32 .f32 := iblk m c 1 t
abbrev maskBlk (c : Dev nD) (t : Fin cfg0.N) : Vec Ideal S1x1x8000 .f32 := iblk m c 2 t
abbrev relBlk (c : Dev nD) (t : Fin cfg0.N) : Vec Ideal S1000x32 .f32 := iblk m c 3 t
abbrev oldRelBlk (c : Dev nD) (t : Fin cfg0.N) : Vec Ideal S1000x32 .f32 := iblk m c 4 t

/-- The step payload at step `t` adds tile `t`'s total to the running entry. -/
theorem step_entry (c : Dev nD) (t : Fin cfg0.N) (xo : Vec Ideal S1x1 .f32) (i : S1x1.Idx) :
    k0_pay2 (F := Ideal) (maskBlk m c t) (entBlk m c t) (oldBlk m c t) xo i
      = xo i + tileTotal (ent m c) (old m c) (mask m c) (Blocks.tileOf t) := by
  rw [Payload.pay2_apply]
  refine congrArg (fun z => xo i + z) ?_
  unfold tileTotal
  refine Finset.sum_congr rfl fun p _ => Finset.sum_congr rfl fun q _ => ?_
  dsimp only [entBlk, oldBlk, maskBlk]
  rw [Blocks.ent_read m c t p q, Blocks.old_read m c t p q, Blocks.mask_read m c t p]

/-- The relation payload at any step is the relation total of the two relation tables. -/
theorem rel_entry (c : Dev nD) (t : Fin cfg0.N) (i : S1x1.Idx) :
    k0_pay1 (F := Ideal) (relBlk m c t) (oldRelBlk m c t) i = relTotal (rel m c) (oldRel m c) := by
  rw [Payload.pay1_apply]
  unfold relTotal
  refine Finset.sum_congr rfl fun p _ => Finset.sum_congr rfl fun q _ => ?_
  dsimp only [relBlk, oldRelBlk]
  rw [Blocks.rel_read m c t p q, Blocks.oldrel_read m c t p q]

/-- After step `n` the output block's entry is the relation total plus the totals of tiles 0 … n. -/
theorem outsAt_eq (c : Dev nD) : ∀ (n : ℕ) (h : n < cfg0.N),
    outsAt0 m c n h = fun _ => partialTotal (ent m c) (old m c) (mask m c) (rel m c) (oldRel m c) n
  | 0, h => by
    rw [outsAt0_A m c ⟨0, h⟩ rfl, Body.out_A]
    funext i
    show k0_pay2 (F := Ideal) (maskBlk m c ⟨0, h⟩) (entBlk m c ⟨0, h⟩) (oldBlk m c ⟨0, h⟩)
      (k0_pay1 (F := Ideal) (relBlk m c ⟨0, h⟩) (oldRelBlk m c ⟨0, h⟩)) i = _
    rw [step_entry, rel_entry, partialTotal_zero]
    rfl
  | n + 1, h => by
    have hN : cfg0.N = 125 := N_0
    have hB : ¬(⟨n + 1, h⟩ : Fin cfg0.N).val % 125 = 0 := by dsimp only; omega
    rw [outsAt0_B m c ⟨n + 1, h⟩ hB, Body.out_B]
    funext i
    show k0_pay2 (F := Ideal) (maskBlk m c ⟨n + 1, h⟩) (entBlk m c ⟨n + 1, h⟩) (oldBlk m c ⟨n + 1, h⟩)
      (outsAt0 m c n (Nat.lt_of_succ_lt h)) i = _
    rw [step_entry, outsAt_eq c n, partialTotal_succ _ _ _ _ _ n (by omega)]
    rfl

/-- The result array's contents at the end: its one entry is the total. -/
abbrev result (c : Dev nD) : Buf (Elt Ideal) ((c : Thread nD τ).loc main_v1) :=
  fun _ => total (ent m c) (old m c) (mask m c) (rel m c) (oldRel m c)

/-- The output window's block index stays at the origin. -/
theorem idx_out : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The last grid step. -/
def tLast : Fin cfg0.N := ⟨124, by rw [show cfg0.N = 125 from N_0]; decide⟩

/-- The one write-back, after step 124, writes the total. -/
theorem flushed_eq (c : Dev nD) (t : Fin cfg0.N) (hf : (cfg0.win 5).flush t = true) :
    (dats m 0 c).flushed 5 t = ((cfg0.win 5).blk t).view.read (Elt Ideal) (result m c) := by
  have hN : cfg0.N = 125 := N_0
  have h124 : t.val = 124 := by have := (flush0_5 t).mp hf; have := t.isLt; omega
  show (cfg0.win 5).cut (grid0.coords t) ((dats m 0 c).after 5 t) = _
  rw [after0_5, outsAt_eq]
  funext y
  rw [View.read_apply]
  show partialTotal (ent m c) (old m c) (mask m c) (rel m c) (oldRel m c) t.val = total (ent m c) (old m c) (mask m c) (rel m c) (oldRel m c)
  rw [h124]
  exact partialTotal_last _ _ _ _ _

/-- So the result array ends at the total: the block written back after step 124 is the whole array. -/
theorem final_o (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat) ∧ (i 0 : Nat) < win0_5.index tLast 0 * win0_5.size 0 + win0_5.xsize (grid0.coords tLast) 0
        rw [(idx_out tLast).1, show win0_5.xsize (grid0.coords tLast) 0 = 1 from by decide +kernel]; omega
      | ⟨1, _⟩ =>
        show win0_5.index tLast 1 * win0_5.size 1 ≤ (i 1 : Nat) ∧ (i 1 : Nat) < win0_5.index tLast 1 * win0_5.size 1 + win0_5.xsize (grid0.coords tLast) 1
        rw [(idx_out tLast).2, show win0_5.xsize (grid0.coords tLast) 1 = 1 from by decide +kernel]; omega⟩

/-- The scalar result: the host's reshape of the result array keeps its one entry. -/
theorem tail_eq (c : Dev nD) :
    Pipeline.afterTail₀ cfgs (dats m) 0 (V0 m) [hostOps1] c main_v2
      = fun _ => total (ent m c) (old m c) (mask m c) (rel m c) (oldRel m c) := by
  unfold Pipeline.afterTail₀
  show StableHlo.after hostOps1 _ (Proc.devRef .tc main_v2) = _
  after_results
  rw [(Pipeline.withArrays_arr spec0 launch0.win.arr_inj c _ _ 5).trans (final_o m c)]
  rfl

/-- The run, read: the scalar result at the total, the five arguments unchanged. -/
theorem run : θ_run defs (onTc (τ := τ) (main (F := Ideal))) ⟨m, fun _ => 0, ρ⟩ fun r => ∀ c : Dev nD,
      r.2.mem ((c : Thread nD τ).loc main_v2) = (fun _ => total (ent m c) (old m c) (mask m c) (rel m c) (oldRel m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.Accum

end
-- ==== Proof.Ref.lean ====
/-
  The reference's result at the exact instance: the total.

  Entry by entry the reference masks both entity tables with the mask spread along the rows, a · m and b · m, takes
  the Huber term of their difference (its linear branch multiplied by the pattern of one) and sums over all entries from
  the zero word; it does the same for the two relation tables without a mask, and adds the two sums. With every input
  entry a coerced real this is the total (the law of the two arrangements).
-/
import proofs.«108133_g89472758710287_cont_sun_m_769_3_alg».proof.Proof.Gen.ReferenceIdeal.Read
import proofs.«108133_g89472758710287_cont_sun_m_769_3_alg».proof.Proof.Huber
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Huber

/-- The mask spread along the rows, for the current table's product: entry (n, j) is the mask's entry n. -/
theorem mask_cur (x4 : SMask.Idx → EReal) (n : Fin 1000000) (j : Fin 32) :
    val_main_v1 (F := Ideal) x4 (ix2 n j) = x4 (ix1 n) := by
  rw [val_main_v1_apply, val_main_v0_apply]
  congr 1
  funext a
  match a with
  | ⟨0, _⟩ => rfl

/-- The same for the old table's product. -/
theorem mask_old (x4 : SMask.Idx → EReal) (n : Fin 1000000) (j : Fin 32) :
    val_main_v4 (F := Ideal) x4 (ix2 n j) = x4 (ix1 n) := by
  rw [val_main_v4_apply, val_main_v3_apply]
  congr 1
  funext a
  match a with
  | ⟨0, _⟩ => rfl

/-- The masked error at (n, j): a · m - b · m. -/
theorem err_apply (x0 x2 : SEnt.Idx → EReal) (x4 : SMask.Idx → EReal) (n : Fin 1000000) (j : Fin 32) :
    val_main_v6 (F := Ideal) x0 x2 x4 (ix2 n j) = x0 (ix2 n j) * x4 (ix1 n) - x2 (ix2 n j) * x4 (ix1 n) := by
  rw [val_main_v6_apply, val_main_v2_apply, val_main_v5_apply, mask_cur, mask_old]
  rfl

/-- The entity term at (n, j): the Huber term, its linear branch multiplied by one, of the masked error. -/
theorem ent_term (x0 x2 : SEnt.Idx → EReal) (x4 : SMask.Idx → EReal) (n : Fin 1000000) (j : Fin 32) :
    val_main_v17 (F := Ideal) x0 x2 x4 (ix2 n j)
      = huberScaled (x0 (ix2 n j) * x4 (ix1 n) - x2 (ix2 n j) * x4 (ix1 n)) := by
  rw [← err_apply x0 x2 x4 n j]
  simp only [val_main_v17_apply, val_main_v16_apply, val_main_v10_apply, val_main_v9_apply, val_main_v14_apply,
    val_main_v12_apply, val_main_v7_apply, val_main_v15_apply, val_main_v13_apply, val_main_v8_apply, val_main_v11_apply,
    val_main_cst_apply, val_main_cst_0_apply, val_main_cst_1_apply, val_main_cst_2_apply]
  rfl

/-- The relation term at (p, q): the same of r - s. -/
theorem rel_term (x1 x3 : SRel.Idx → EReal) (p : Fin 1000) (q : Fin 32) :
    val_main_v30 (F := Ideal) x1 x3 (ix2 p q) = huberScaled (x1 (ix2 p q) - x3 (ix2 p q)) := by
  simp only [val_main_v30_apply, val_main_v29_apply, val_main_v23_apply, val_main_v22_apply, val_main_v27_apply,
    val_main_v25_apply, val_main_v20_apply, val_main_v28_apply, val_main_v26_apply, val_main_v21_apply, val_main_v24_apply,
    val_main_cst_4_apply, val_main_cst_5_apply, val_main_cst_6_apply, val_main_cst_7_apply, val_main_v19_apply]
  rfl

/-- The reference's scalar result is the total, when every input entry is a coerced real. -/
theorem ref_total (x0 : SEnt.Idx → EReal) (x1 : SRel.Idx → EReal) (x2 : SEnt.Idx → EReal) (x3 : SRel.Idx → EReal)
    (x4 : SMask.Idx → EReal)
    (h0 : ∀ i, ∃ x : ℝ, x0 i = (x : EReal)) (h2 : ∀ i, ∃ x : ℝ, x2 i = (x : EReal)) (h4 : ∀ i, ∃ x : ℝ, x4 i = (x : EReal))
    (i : S_.Idx) :
    val_main_v32 (F := Ideal) x0 x1 x2 x3 x4 i = total x0 x2 x4 x1 x3 := by
  rw [val_main_v32_apply, val_main_v18_apply, val_main_v31_apply, sum_idx2, sum_idx2,
    ← maskedFirst_total x0 x2 x4 x1 x3 h0 h2 h4]
  unfold entTotalMaskedFirst relTotal
  simp only [ent_term, rel_term, huberScaled_eq, val_main_cst_3_apply, val_main_cst_8_apply, Ideal.ofBits_def,
    Ideal.ofBits_zero_f32, Ideal.addf_def]

end Cert.ReferenceIdeal.RefValue

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.Finite.lean ====
/-
  From the precondition to real entries.

  The precondition tests each of the five inputs by all(|x| < +inf) and conjoins the five one-bit answers. If the
  conjunction is one, each answer is one, and then every entry of every input is a coerced real.
-/
import proofs.«108133_g89472758710287_cont_sun_m_769_3_alg».proof.Pre_finite_inputs
import proofs.«108133_g89472758710287_cont_sun_m_769_3_alg».proof.Proof.LibFinite
import Idealize.ShloMosaic.Lib.Affine
import Idealize.ShloMosaic.Lib.ValueIdx

noncomputable section

namespace Cert.Pre_finite_inputs.Finite

open Idealize.ShloMosaic Idealize.ShloMosaic.ValueIdx Cert.Pre_finite_inputs

variable [Cert.Pre_finite_inputs.Facts]

/-- If the finiteness test of the five inputs answers one, every entry of each input is a coerced real. -/
theorem reals_of_pre (a0 : FVec Ideal S1000000x32 .f32) (a1 : FVec Ideal S1000x32 .f32) (a2 : FVec Ideal S1000000x32 .f32)
    (a3 : FVec Ideal S1000x32 .f32) (a4 : FVec Ideal S1000000 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [fn, fn_part1] at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨Cert.LibFinite.real_of_all a0 _ _ _ e0, Cert.LibFinite.real_of_all a1 _ _ _ e1,
    Cert.LibFinite.real_of_all a2 _ _ _ e2, Cert.LibFinite.real_of_all a3 _ _ _ e3,
    Cert.LibFinite.real_of_all a4 _ _ _ e4⟩

end Cert.Pre_finite_inputs.Finite

end
-- ==== Proof.lean ====
/-
  The masked Huber distillation loss: a kernel that accumulates tile totals against the plain jnp reference.

  Both programs compute, for two 1000000 × 32 entity tables a, b, a mask m of 1000000 entries and two 1000 × 32 relation
  tables r, s, a sum of Huber terms: of the masked entity errors and of the relation errors r - s. The kernel walks the
  entity tables in 125 tiles of 8000 rows, forms (a - b) · m on a tile, and keeps one running entry: the relation total
  at the first step, plus one tile total per step; the host reshapes the mask before and the one-entry result after.
  The reference forms a · m - b · m on the whole tables, sums all entries, and adds the relation total last.
  Over the extended reals the two agree when every input entry is a coerced real, which the precondition gives: the
  product then distributes over the difference; regrouping the rows into tiles and reordering the additions changes
  nothing; and the reference's factor one on the linear branch is the identity.

  The three frames are the generated frame runs of the two kernels and the reference's generated run; the ideal pass
  rewrote nothing, so the preservation claim is trivial; the value claim joins the kernel's run read at the exact
  instance with the reference's run read one operation at a time.
-/
import proofs.«108133_g89472758710287_cont_sun_m_769_3_alg».proof.Defs
import proofs.«108133_g89472758710287_cont_sun_m_769_3_alg».proof.Proof.Gen.Kernel
import proofs.«108133_g89472758710287_cont_sun_m_769_3_alg».proof.Proof.Gen.Kernel.Frame
import proofs.«108133_g89472758710287_cont_sun_m_769_3_alg».proof.Proof.Gen.KernelIdeal
import proofs.«108133_g89472758710287_cont_sun_m_769_3_alg».proof.Proof.Gen.KernelIdeal.Frame
import proofs.«108133_g89472758710287_cont_sun_m_769_3_alg».proof.Proof.Gen.ReferenceIdeal
import proofs.«108133_g89472758710287_cont_sun_m_769_3_alg».proof.Proof.Gen.Pre_finite_inputs
import proofs.«108133_g89472758710287_cont_sun_m_769_3_alg».proof.Proof.Gen.ReferenceIdeal.Run
import proofs.«108133_g89472758710287_cont_sun_m_769_3_alg».proof.Proof.Gen.ReferenceIdeal.Read
import proofs.«108133_g89472758710287_cont_sun_m_769_3_alg».proof.Proof.Accum
import proofs.«108133_g89472758710287_cont_sun_m_769_3_alg».proof.Proof.Ref
import proofs.«108133_g89472758710287_cont_sun_m_769_3_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading at the exact instance. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the total of the (agreeing) arguments: the kernel by accumulation over the tiles, the
    reference by the law of the two arrangements, every input entry being a coerced real under the precondition. -/
theorem algebraic : Cert.algebraic_KernelIdeal_ReferenceIdeal := by
  intro m ρ m' ρ' hpre hagree
  refine ⟨fun c _ => Cert.Huber.total (Cert.KernelIdeal.Accum.ent m c) (Cert.KernelIdeal.Accum.old m c)
    (Cert.KernelIdeal.Accum.mask m c) (Cert.KernelIdeal.Accum.rel m c) (Cert.KernelIdeal.Accum.oldRel m c),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  obtain ⟨h0, -, h2, -, h4⟩ := Cert.Pre_finite_inputs.Finite.reals_of_pre _ _ _ _ _ (hpre c)
  funext i
  exact (congrFun (Cert.ReferenceIdeal.Read.val_main_v32_eq (F := Ideal) _ _ _ _ _) i).trans
    (Cert.ReferenceIdeal.RefValue.ref_total _ _ _ _ _ h0 h2 h4 i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
